-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x384 : Shape := ⟨2, ![2048, 384]⟩
abbrev S32768x2048 : Shape := ⟨2, ![32768, 2048]⟩
abbrev S384x50 : Shape := ⟨2, ![384, 50]⟩
abbrev S50 : Shape := ⟨1, ![50]⟩
abbrev S_ : Shape := ⟨0, ![]⟩

class Facts : Prop where
  bcast_S_S2048x384 : S_.BroadcastsInDim S2048x384 (![] : Fin 0 → Fin S2048x384.rank)
  reducesTo_S2048x384_S_d0_1 : S2048x384.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S384x50 : S_.BroadcastsInDim S384x50 (![] : Fin 0 → Fin S384x50.rank)
  reducesTo_S384x50_S_d0_1 : S384x50.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  main_v18

def fn {F : FTy → Type} [FloatOps F] (main_arg0 : FVec F S2048x384 .f32) (main_arg1 : FVec F S32768x2048 .f32) (main_arg2 : FVec F S384x50 .f32) (main_arg3 : FVec F S50 .f32) : IVec S_ 1 :=
  let main_v0 : FVec F S2048x384 .f32 := Host.absf main_arg0
  let main_cst : FVec F S_ .f32 := constant S_ .f32 0x7F800000#32
  let main_v1 : FVec F S2048x384 .f32 := broadcastInDim S2048x384 ![] bcast_S_S2048x384 main_cst
  let main_v2 : IVec S2048x384 1 := cmpf .olt main_v0 main_v1
  let main_c : IVec S_ 1 := constantI S_ 1 1#1
  let main_v3 : IVec S_ 1 := (fun x v => Host.reduce IntOp.andi x v reducesTo_S2048x384_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S384x50 .f32 := Host.absf main_arg2
  let main_cst_2 : FVec F S_ .f32 := constant S_ .f32 0x7F800000#32
  let main_v10 : FVec F S384x50 .f32 := broadcastInDim S384x50 ![] bcast_S_S384x50 main_cst_2
  let main_v11 : IVec S384x50 1 := cmpf .olt main_v9 main_v10
  let main_c_3 : IVec S_ 1 := constantI S_ 1 1#1
  let main_v12 : IVec S_ 1 := (fun x v => Host.reduce IntOp.andi x v reducesTo_S384x50_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_v13 main_v16
-- ==== Kernel.lean ====
abbrev S2048x384 : Shape := ⟨2, ![2048, 384]⟩
abbrev S32768x2048 : Shape := ⟨2, ![32768, 2048]⟩
abbrev S384x50 : Shape := ⟨2, ![384, 50]⟩
abbrev S50 : Shape := ⟨1, ![50]⟩
abbrev S2048x50 : Shape := ⟨2, ![2048, 50]⟩
abbrev S32768x50 : Shape := ⟨2, ![32768, 50]⟩
abbrev S1024x2048 : Shape := ⟨2, ![1024, 2048]⟩
abbrev S1024x50 : Shape := ⟨2, ![1024, 50]⟩
abbrev S1x50 : Shape := ⟨2, ![1, 50]⟩

abbrev nBuf : Space → Nat
  | .hbm => 6
  | .vmem => 9
  | .smem => 0
  | _ => 0

abbrev bufTy : (tb : Table) → Fin (tcTables nBuf tb) → BufTy
  | .hbm, ⟨0, _⟩ => ⟨S2048x384, .f32⟩
  | .hbm, ⟨1, _⟩ => ⟨S32768x2048, .f32⟩
  | .hbm, ⟨2, _⟩ => ⟨S384x50, .f32⟩
  | .hbm, ⟨3, _⟩ => ⟨S50, .f32⟩
  | .hbm, ⟨4, _⟩ => ⟨S2048x50, .f32⟩
  | .hbm, ⟨5, _⟩ => ⟨S32768x50, .f32⟩
  | .local _ .vmem, ⟨0, _⟩ => ⟨S2048x384, .f32⟩
  | .local _ .vmem, ⟨1, _⟩ => ⟨S384x50, .f32⟩
  | .local _ .vmem, ⟨2, _⟩ => ⟨S2048x50, .f32⟩
  | .local _ .vmem, ⟨3, _⟩ => ⟨S1024x2048, .f32⟩
  | .local _ .vmem, ⟨4, _⟩ => ⟨S1024x2048, .f32⟩
  | .local _ .vmem, ⟨5, _⟩ => ⟨S2048x50, .f32⟩
  | .local _ .vmem, ⟨6, _⟩ => ⟨S50, .f32⟩
  | .local _ .vmem, ⟨7, _⟩ => ⟨S1024x50, .f32⟩
  | .local _ .vmem, ⟨8, _⟩ => ⟨S1024x50, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x384_S2048x384_0_0 : ∀ a, (![0, 0] : Fin 2 → Nat) a + S2048x384.size a ≤ S2048x384.size a
  h_S2048x384 : 0 < S2048x384.numel
  bitsLt_bf16_f32 : FTy.bits .bf16 < FTy.bits .f32
  inb_S384x50_S384x50_0_0 : ∀ a, (![0, 0] : Fin 2 → Nat) a + S384x50.size a ≤ S384x50.size a
  h_S384x50 : 0 < S384x50.numel
  inb_S2048x50_S2048x50_0_0 : ∀ a, (![0, 0] : Fin 2 → Nat) a + S2048x50.size a ≤ S2048x50.size a
  h_S2048x50 : 0 < S2048x50.numel
  inb_S1024x2048_S1024x2048_0_0 : ∀ a, (![0, 0] : Fin 2 → Nat) a + S1024x2048.size a ≤ S1024x2048.size a
  h_S1024x2048 : 0 < S1024x2048.numel
  shapeCasts_S2048x50_S2048x50 : S2048x50.ShapeCasts S2048x50
  inb_S50_S50_0 : ∀ a, (![0] : Fin 1 → Nat) a + S50.size a ≤ S50.size a
  h_S50 : 0 < S50.numel
  shapeCasts_S50_S1x50 : S50.ShapeCasts S1x50
  broadcasts_S1x50_S1024x50 : S1x50.Broadcasts S1024x50
  inb_S1024x50_S1024x50_0_0 : ∀ a, (![0, 0] : Fin 2 → Nat) a + S1024x50.size a ≤ S1024x50.size a
  h_S1024x50 : 0 < S1024x50.numel
  dot_S2048x384_S384x50_S2048x50_1_0_0_1_n_n_wf : DotDims.WF S2048x384 S384x50 S2048x50 [1] [0] [0] [1] [] []
  dot_S1024x2048_S2048x50_S1024x50_1_0_0_1_n_n_wf : DotDims.WF S1024x2048 S2048x50 S1024x50 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S2048x384.size a
  hwx0_0 : ∀ i : grid0.Coords, EltTy.bits .f32 = 32 ∨ (Rect.block (s := S2048x384) S2048x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x50.size a ≤ S384x50.size a
  hwx0_1 : ∀ i : grid0.Coords, EltTy.bits .f32 = 32 ∨ (Rect.block (s := S384x50) S384x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x50.size a ≤ S2048x50.size a
  hwx0_2 : ∀ i : grid0.Coords, EltTy.bits .f32 = 32 ∨ (Rect.block (s := S2048x50) S2048x50.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S32768x2048.size a
  hwx1_0 : ∀ i : grid1.Coords, EltTy.bits .f32 = 32 ∨ (Rect.block (s := S32768x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x50.size a ≤ S2048x50.size a
  hwx1_1 : ∀ i : grid1.Coords, EltTy.bits .f32 = 32 ∨ (Rect.block (s := S2048x50) S2048x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50.size a ≤ S50.size a
  hwx1_2 : ∀ i : grid1.Coords, EltTy.bits .f32 = 32 ∨ (Rect.block (s := S50) S50.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x50.size a ≤ S32768x50.size a
  hwx1_3 : ∀ i : grid1.Coords, EltTy.bits .f32 = 32 ∨ (Rect.block (s := S32768x50) S1024x50.size (cc1_transform_3 i) (hinb1_3 i)).WholeWords (EltTy.packing .f32)

variable [Facts₀]

def dot_S2048x384_S384x50_S2048x50_1_0_0_1_n_n : DotDims S2048x384 S384x50 S2048x50 where
  lhsContracting := [1]
  rhsContracting := [0]
  lhsNonContracting := [0]
  rhsNonContracting := [1]
  lhsBatch := []
  rhsBatch := []
  wf := dot_S2048x384_S384x50_S2048x50_1_0_0_1_n_n_wf
def dot_S1024x2048_S2048x50_S1024x50_1_0_0_1_n_n : DotDims S1024x2048 S2048x50 S1024x50 where
  lhsContracting := [1]
  rhsContracting := [0]
  lhsNonContracting := [0]
  rhsNonContracting := [1]
  lhsBatch := []
  rhsBatch := []
  wf := dot_S1024x2048_S2048x50_S1024x50_1_0_0_1_n_n_wf

abbrev win0_0 : Pipeline.Window sig grid0 :=
  Pipeline.Window.ofSpec (Memref.whole main_arg0) S2048x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S384x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x50.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x384 : Shape := ⟨2, ![2048, 384]⟩
abbrev S32768x2048 : Shape := ⟨2, ![32768, 2048]⟩
abbrev S384x50 : Shape := ⟨2, ![384, 50]⟩
abbrev S50 : Shape := ⟨1, ![50]⟩
abbrev S32768x384 : Shape := ⟨2, ![32768, 384]⟩
abbrev S32768x50 : Shape := ⟨2, ![32768, 50]⟩
abbrev S1x50 : Shape := ⟨2, ![1, 50]⟩

abbrev nBuf : Space → Nat
  | .hbm => 9
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S32768x2048, .f32⟩
  | .hbm, ⟨2, _⟩ => ⟨S384x50, .f32⟩
  | .hbm, ⟨3, _⟩ => ⟨S50, .f32⟩
  | .hbm, ⟨4, _⟩ => ⟨S32768x384, .f32⟩
  | .hbm, ⟨5, _⟩ => ⟨S32768x50, .f32⟩
  | .hbm, ⟨6, _⟩ => ⟨S1x50, .f32⟩
  | .hbm, ⟨7, _⟩ => ⟨S32768x50, .f32⟩
  | .hbm, ⟨8, _⟩ => ⟨S32768x50, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S32768x50_0_1 : S1x50.BroadcastsInDim S32768x50 (![0, 1] : Fin 2 → Fin S32768x50.rank)
  dot_S32768x2048_S2048x384_S32768x384_1_0_0_1_n_n_wf : DotDims.WF S32768x2048 S2048x384 S32768x384 [1] [0] [0] [1] [] []
  dot_S32768x384_S384x50_S32768x50_1_0_0_1_n_n_wf : DotDims.WF S32768x384 S384x50 S32768x50 [1] [0] [0] [1] [] []

variable [Facts₀]

def dot_S32768x2048_S2048x384_S32768x384_1_0_0_1_n_n : DotDims S32768x2048 S2048x384 S32768x384 where
  lhsContracting := [1]
  rhsContracting := [0]
  lhsNonContracting := [0]
  rhsNonContracting := [1]
  lhsBatch := []
  rhsBatch := []
  wf := dot_S32768x2048_S2048x384_S32768x384_1_0_0_1_n_n_wf
def dot_S32768x384_S384x50_S32768x50_1_0_0_1_n_n : DotDims S32768x384 S384x50 S32768x50 where
  lhsContracting := [1]
  rhsContracting := [0]
  lhsNonContracting := [0]
  rhsNonContracting := [1]
  lhsBatch := []
  rhsBatch := []
  wf := dot_S32768x384_S384x50_S32768x50_1_0_0_1_n_n_wf

class Facts : Prop extends Facts₀ where

variable [Facts]
-- ==== Proof.KernelPayload.lean ====
/-
  What each kernel body stores, read at an index, at the ideal instance.
  The first body stores the matrix product of its two loaded blocks (the change of float format before the product is
  the identity on extended reals, and the accumulator is the zero splat): entry (p, q) is the sum over k of x (p, k) * w (k, q).
  The second body stores the product of its first two blocks plus its third block, a vector of 50 entries read as a
  row and repeated down the 1024 rows: entry (p, q) is the sum over k of x (p, k) * y (k, q), plus b q.
-/
import proofs.«125239_j58591943852065_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The first product: 2048 x 384 by 384 x 50 -/

theorem lhs_sw_0 (i : S2048x50.Idx) (q : dot_S2048x384_S384x50_S2048x50_1_0_0_1_n_n.contr.Idx) :
    (dot_S2048x384_S384x50_S2048x50_1_0_0_1_n_n.lhsIdx i q 0).val = (i 0).val := by
  unfold DotDims.lhsIdx
  rw [dif_neg (show ¬(0 : Fin S2048x384.rank) ∈ dot_S2048x384_S384x50_S2048x50_1_0_0_1_n_n.lhsBatch by decide), dif_pos (show (0 : Fin S2048x384.rank) ∈ dot_S2048x384_S384x50_S2048x50_1_0_0_1_n_n.lhsNonContracting by decide)]
  rfl
theorem lhs_sw_1 (i : S2048x50.Idx) (q : dot_S2048x384_S384x50_S2048x50_1_0_0_1_n_n.contr.Idx) :
    (dot_S2048x384_S384x50_S2048x50_1_0_0_1_n_n.lhsIdx i q 1).val = (q ⟨0, by decide⟩).val :=
  dot_S2048x384_S384x50_S2048x50_1_0_0_1_n_n.lhsIdx_val_of_single rfl i q
theorem rhs_sw_0 (i : S2048x50.Idx) (q : dot_S2048x384_S384x50_S2048x50_1_0_0_1_n_n.contr.Idx) :
    (dot_S2048x384_S384x50_S2048x50_1_0_0_1_n_n.rhsIdx i q 0).val = (q ⟨0, by decide⟩).val :=
  dot_S2048x384_S384x50_S2048x50_1_0_0_1_n_n.rhsIdx_val_of_single rfl i q
theorem rhs_sw_1 (i : S2048x50.Idx) (q : dot_S2048x384_S384x50_S2048x50_1_0_0_1_n_n.contr.Idx) :
    (dot_S2048x384_S384x50_S2048x50_1_0_0_1_n_n.rhsIdx i q 1).val = (i 1).val := by
  unfold DotDims.rhsIdx
  rw [dif_neg (show ¬(1 : Fin S384x50.rank) ∈ dot_S2048x384_S384x50_S2048x50_1_0_0_1_n_n.rhsBatch by decide), dif_pos (show (1 : Fin S384x50.rank) ∈ dot_S2048x384_S384x50_S2048x50_1_0_0_1_n_n.rhsNonContracting by decide)]
  rfl

/-- Entry (p, q) of what the first body stores: row p of its first block against column q of its second. -/
theorem sw_apply (x : Vec Ideal S2048x384 .f32) (w : Vec Ideal S384x50 .f32) (p : Fin 2048) (q : Fin 50) :
    k0_pay1 (F := Ideal) x w (ix2 p q) = ∑ k : Fin 384, x (ix2 p k) * w (ix2 k q) := by
  unfold k0_pay1
  simp only [matmul]
  rw [Ideal.matmul_constant_zero_apply, ← Equiv.sum_comp (contrEquiv1 dot_S2048x384_S384x50_S2048x50_1_0_0_1_n_n 384 rfl rfl).symm]
  refine Finset.sum_congr rfl fun k _ => ?_
  have hk := contrEquiv1_symm_val dot_S2048x384_S384x50_S2048x50_1_0_0_1_n_n 384 rfl rfl k
  have el : dot_S2048x384_S384x50_S2048x50_1_0_0_1_n_n.lhsIdx (ix2 p q) ((contrEquiv1 dot_S2048x384_S384x50_S2048x50_1_0_0_1_n_n 384 rfl rfl).symm k) = ix2 p k := funext fun a => Fin.ext (by
    match a with
    | ⟨0, _⟩ => exact lhs_sw_0 _ _
    | ⟨1, _⟩ => exact (lhs_sw_1 _ _).trans hk)
  have er : dot_S2048x384_S384x50_S2048x50_1_0_0_1_n_n.rhsIdx (ix2 p q) ((contrEquiv1 dot_S2048x384_S384x50_S2048x50_1_0_0_1_n_n 384 rfl rfl).symm k) = ix2 k q := funext fun a => Fin.ext (by
    match a with
    | ⟨0, _⟩ => exact (rhs_sw_0 _ _).trans hk
    | ⟨1, _⟩ => exact rhs_sw_1 _ _)
  rw [el, er]
  rfl

/-! ## The second product: 1024 x 2048 by 2048 x 50 -/

theorem lhs_lg_0 (i : S1024x50.Idx) (q : dot_S1024x2048_S2048x50_S1024x50_1_0_0_1_n_n.contr.Idx) :
    (dot_S1024x2048_S2048x50_S1024x50_1_0_0_1_n_n.lhsIdx i q 0).val = (i 0).val := by
  unfold DotDims.lhsIdx
  rw [dif_neg (show ¬(0 : Fin S1024x2048.rank) ∈ dot_S1024x2048_S2048x50_S1024x50_1_0_0_1_n_n.lhsBatch by decide), dif_pos (show (0 : Fin S1024x2048.rank) ∈ dot_S1024x2048_S2048x50_S1024x50_1_0_0_1_n_n.lhsNonContracting by decide)]
  rfl
theorem lhs_lg_1 (i : S1024x50.Idx) (q : dot_S1024x2048_S2048x50_S1024x50_1_0_0_1_n_n.contr.Idx) :
    (dot_S1024x2048_S2048x50_S1024x50_1_0_0_1_n_n.lhsIdx i q 1).val = (q ⟨0, by decide⟩).val :=
  dot_S1024x2048_S2048x50_S1024x50_1_0_0_1_n_n.lhsIdx_val_of_single rfl i q
theorem rhs_lg_0 (i : S1024x50.Idx) (q : dot_S1024x2048_S2048x50_S1024x50_1_0_0_1_n_n.contr.Idx) :
    (dot_S1024x2048_S2048x50_S1024x50_1_0_0_1_n_n.rhsIdx i q 0).val = (q ⟨0, by decide⟩).val :=
  dot_S1024x2048_S2048x50_S1024x50_1_0_0_1_n_n.rhsIdx_val_of_single rfl i q
theorem rhs_lg_1 (i : S1024x50.Idx) (q : dot_S1024x2048_S2048x50_S1024x50_1_0_0_1_n_n.contr.Idx) :
    (dot_S1024x2048_S2048x50_S1024x50_1_0_0_1_n_n.rhsIdx i q 1).val = (i 1).val := by
  unfold DotDims.rhsIdx
  rw [dif_neg (show ¬(1 : Fin S2048x50.rank) ∈ dot_S1024x2048_S2048x50_S1024x50_1_0_0_1_n_n.rhsBatch by decide), dif_pos (show (1 : Fin S2048x50.rank) ∈ dot_S1024x2048_S2048x50_S1024x50_1_0_0_1_n_n.rhsNonContracting by decide)]
  rfl

/-- The bias block, cast to one row and repeated down the rows, read at (p, q): entry q of the vector. -/
theorem bias_apply (b : Vec Ideal S50 .f32) (p : Fin 1024) (q : Fin 50) :
    broadcastTo S1024x50 (shapeCast S1x50 b shapeCasts_S50_S1x50) broadcasts_S1x50_S1024x50 (ix2 p q) = b (ix1 q) := by
  rw [broadcastTo_apply _ broadcasts_S1x50_S1024x50 (ix2 p q) (ix2 (⟨0, Nat.one_pos⟩ : Fin 1) q) (fun a => by
    match a with
    | ⟨0, _⟩ => rfl
    | ⟨1, _⟩ => rfl)]
  exact shapeCast_apply b shapeCasts_S50_S1x50 _ (ix1 q) (by
    rw [Shape.rowMajor_val_one, Shape.rowMajor_val_two]
    show (q : ℕ) = 0 * 50 + (q : ℕ)
    omega)

/-- Entry (p, q) of what the second body stores: row p of its first block against column q of its second, plus
    entry q of its third. -/
theorem logits_apply (x : Vec Ideal S1024x2048 .f32) (y : Vec Ideal S2048x50 .f32) (b : Vec Ideal S50 .f32)
    (p : Fin 1024) (q : Fin 50) :
    k1_pay1 (F := Ideal) x y b (ix2 p q) = (∑ k : Fin 2048, x (ix2 p k) * y (ix2 k q)) + b (ix1 q) := by
  unfold k1_pay1
  simp only [matmul]
  rw [addf_apply, bias_apply, shapeCast_self]
  refine congrArg (· + b (ix1 q)) ?_
  rw [Ideal.matmul_constant_zero_apply, ← Equiv.sum_comp (contrEquiv1 dot_S1024x2048_S2048x50_S1024x50_1_0_0_1_n_n 2048 rfl rfl).symm]
  refine Finset.sum_congr rfl fun k _ => ?_
  have hk := contrEquiv1_symm_val dot_S1024x2048_S2048x50_S1024x50_1_0_0_1_n_n 2048 rfl rfl k
  have el : dot_S1024x2048_S2048x50_S1024x50_1_0_0_1_n_n.lhsIdx (ix2 p q) ((contrEquiv1 dot_S1024x2048_S2048x50_S1024x50_1_0_0_1_n_n 2048 rfl rfl).symm k) = ix2 p k := funext fun a => Fin.ext (by
    match a with
    | ⟨0, _⟩ => exact lhs_lg_0 _ _
    | ⟨1, _⟩ => exact (lhs_lg_1 _ _).trans hk)
  have er : dot_S1024x2048_S2048x50_S1024x50_1_0_0_1_n_n.rhsIdx (ix2 p q) ((contrEquiv1 dot_S1024x2048_S2048x50_S1024x50_1_0_0_1_n_n 2048 rfl rfl).symm k) = ix2 k q := funext fun a => Fin.ext (by
    match a with
    | ⟨0, _⟩ => exact (rhs_lg_0 _ _).trans hk
    | ⟨1, _⟩ => exact rhs_lg_1 _ _)
  rw [el, er]
  rfl

end Cert.KernelIdeal.Payload

end
-- ==== Proof.KernelValue.lean ====
/-
  The kernel program's result as one function of the argument arrays.
  The first region has one grid point and every window's block is its whole array, so the array it writes back is the
  body's product of the two arrays it reads. The second region walks the 32768 rows in 32 blocks of 1024: point t reads
  rows [1024 t, 1024 t + 1024) of the one-hot matrix, the whole of the first region's result and the whole bias, and
  writes back the same rows of the output; the blocks tile the output, so the output is, row by row, that row of the
  one-hot matrix against the first region's result, plus the bias. The last boundary of the program's fold through its
  two regions, read at the result buffer, is that function of the launch contents of the four arguments.
-/
import proofs.«125239_j58591943852065_1_alg».proof.Proof.Gen.KernelIdeal.Frame
import proofs.«125239_j58591943852065_1_alg».proof.Proof.KernelPayload
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- Rows of the one-hot matrix against a 2048 x 50 matrix, plus the bias: entry (a, o) is
    the sum over r of T (a, r) * y (r, o), plus b o. -/
def rowsTimes (T : Vec Ideal S32768x2048 .f32) (y : Vec Ideal S2048x50 .f32) (b : Vec Ideal S50 .f32) :
    Vec Ideal S32768x50 .f32 :=
  fun i => (∑ k : Fin 2048, T (ix2 (i 0 : Fin 32768) k) * y (ix2 k (i 1 : Fin 50))) + b (ix1 (i 1 : Fin 50))

/-- The whole kernel program: the second region applied to the first region's product. -/
def kernelOut (s : Vec Ideal S2048x384 .f32) (T : Vec Ideal S32768x2048 .f32) (W : Vec Ideal S384x50 .f32)
    (b : Vec Ideal S50 .f32) : Vec Ideal S32768x50 .f32 :=
  rowsTimes T (k0_pay1 (F := Ideal) s W) b

theorem hz2 : (![0, 0] : Fin 2 → Nat) = fun _ => 0 := funext fun a => by fin_cases a <;> rfl
theorem hz1 : (![0] : Fin 1 → Nat) = fun _ => 0 := funext fun a => by fin_cases a; rfl

section Regions
variable (V : (c : Dev nD) → (b : Ref sig .tc) → Buf (Elt Ideal) ((c : Thread nD τ).loc b))

/-! ## Region 0: one point, whole-array blocks -/

/-- Every block index of region 0 is zero (decided at its one point). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first window's block is the whole first array. -/
theorem blk0_0 (c : Dev nD) (t : Fin cfg0.N) : (iblk0 V c 0 t : Vec Ideal S2048x384 .f32) = V c main_arg0 := by
  obtain ⟨e0, e1, -, -, -, -⟩ := idx_facts0 t
  funext j
  show V c main_arg0 (((cfg0.win 0).blk t).view.emb j) = V c main_arg0 j
  refine congrArg (V c main_arg0) (funext fun a => Fin.ext ?_)
  match a with
  | ⟨0, _⟩ => show win0_0.index t (0 : Fin 2) * 2048 + 1 * (j 0).val = (j 0).val; omega
  | ⟨1, _⟩ => show win0_0.index t (1 : Fin 2) * 384 + 1 * (j 1).val = (j 1).val; omega

/-- The second window's block is the whole second array. -/
theorem blk0_1 (c : Dev nD) (t : Fin cfg0.N) : (iblk0 V c 1 t : Vec Ideal S384x50 .f32) = V c main_arg2 := by
  obtain ⟨-, -, e0, e1, -, -⟩ := idx_facts0 t
  funext j
  show V c main_arg2 (((cfg0.win 1).blk t).view.emb j) = V c main_arg2 j
  refine congrArg (V c main_arg2) (funext fun a => Fin.ext ?_)
  match a with
  | ⟨0, _⟩ => show win0_1.index t (0 : Fin 2) * 384 + 1 * (j 0).val = (j 0).val; omega
  | ⟨1, _⟩ => show win0_1.index t (1 : Fin 2) * 50 + 1 * (j 1).val = (j 1).val; omega

/-- What the one point writes back is the whole product, read through the (whole) output block. -/
theorem flushed0_eq (c : Dev nD) (t : Fin cfg0.N) :
    (dat0 V c).flushed 2 t = ((cfg0.win 2).blk t).view.read (Elt Ideal) (k0_pay1 (F := Ideal) (V c main_arg0) (V c main_arg2)) := by
  show (cfg0.win 2).cut (grid0.coords t) ((dat0 V c).after 2 t) = _
  rw [after0_2]
  unfold out0_2
  rw [View.canon_unit_zero hz2]
  simp only [View.ld_unit_zero (S := S2048x384) hz2, View.ld_unit_zero (S := S384x50) hz2]
  rw [blk0_0, blk0_1]
  obtain ⟨-, -, -, -, e0, e1⟩ := idx_facts0 t
  funext j
  show k0_pay1 (F := Ideal) (V c main_arg0) (V c main_arg2) j
    = k0_pay1 (F := Ideal) (V c main_arg0) (V c main_arg2) (((cfg0.win 2).blk t).view.emb j)
  refine congrArg (k0_pay1 (F := Ideal) (V c main_arg0) (V c main_arg2)) (funext fun a => Fin.ext ?_)
  match a with
  | ⟨0, _⟩ => show (j 0).val = win0_2.index t (0 : Fin 2) * 2048 + 1 * (j 0).val; omega
  | ⟨1, _⟩ => show (j 1).val = win0_2.index t (1 : Fin 2) * 50 + 1 * (j 1).val; omega

/-- An index of the output array is in the point's block iff each coordinate is in the block's range. -/
theorem mem_blk0 (t : Fin cfg0.N) (i : S2048x50.Idx) :
    i ∈ ((cfg0.win 2).blk t).view.set ↔ ∀ a : Fin 2, win0_2.index t a * S2048x50.size a ≤ (i a).val ∧ (i a).val < win0_2.index t a * S2048x50.size a + S2048x50.size a := by
  show i ∈ ((View.whole main_v0).slice (win0_2.rect t)).set ↔ _
  rw [View.set_slice_whole, Rect.mem_set_unit]
  exact Iff.rfl

/-- The one block covers the output array. -/
theorem cover0 (i : S2048x50.Idx) : ∃ t : Fin cfg0.N, (cfg0.win 2).flush t = true ∧ i ∈ ((cfg0.win 2).blk t).view.set := by
  refine ⟨⟨0, by decide⟩, flush0_2 _, ?_⟩
  rw [mem_blk0]
  obtain ⟨-, -, -, -, e0, e1⟩ := idx_facts0 ⟨0, by decide⟩
  have hi0 : (i 0).val < 2048 := (i 0).isLt
  have hi1 : (i 1).val < 50 := (i 1).isLt
  intro a
  match a with
  | ⟨0, _⟩ => show win0_2.index ⟨0, _⟩ (0 : Fin 2) * 2048 ≤ (i 0).val ∧ (i 0).val < win0_2.index ⟨0, _⟩ (0 : Fin 2) * 2048 + 2048; omega
  | ⟨1, _⟩ => show win0_2.index ⟨0, _⟩ (1 : Fin 2) * 50 ≤ (i 1).val ∧ (i 1).val < win0_2.index ⟨0, _⟩ (1 : Fin 2) * 50 + 50; omega

/-- Region 0's output array after the region: the product of the two arrays it reads. -/
theorem region0_array (c : Dev nD) :
    (dat0 V c).arrAt 2 cfg0.N = k0_pay1 (F := Ideal) (V c main_arg0) (V c main_arg2) :=
  (dat0 V c).arrAt_eq_of_cover 2 _ (fun t _ => flushed0_eq V c t) cover0

/-! ## Region 1: 32 row blocks of 1024 -/

/-- The block indices of region 1, decided over its 32 points: the one-hot window and the output window move down the
    rows with the point; the other two windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The second window's block is the whole of the first region's result. -/
theorem blk1_1 (c : Dev nD) (t : Fin cfg1.N) : (iblk1 V c 1 t : Vec Ideal S2048x50 .f32) = V c main_v0 := by
  obtain ⟨-, -, e0, e1, -, -, -⟩ := idx_facts1 t
  funext j
  show V c main_v0 (((cfg1.win 1).blk t).view.emb j) = V c main_v0 j
  refine congrArg (V c main_v0) (funext fun a => Fin.ext ?_)
  match a with
  | ⟨0, _⟩ => show win1_1.index t (0 : Fin 2) * 2048 + 1 * (j 0).val = (j 0).val; omega
  | ⟨1, _⟩ => show win1_1.index t (1 : Fin 2) * 50 + 1 * (j 1).val = (j 1).val; omega

/-- The third window's block is the whole bias. -/
theorem blk1_2 (c : Dev nD) (t : Fin cfg1.N) : (iblk1 V c 2 t : Vec Ideal S50 .f32) = V c main_arg3 := by
  obtain ⟨-, -, -, -, e0, -, -⟩ := idx_facts1 t
  funext j
  show V c main_arg3 (((cfg1.win 2).blk t).view.emb j) = V c main_arg3 j
  refine congrArg (V c main_arg3) (funext fun a => Fin.ext ?_)
  match a with
  | ⟨0, _⟩ => show win1_2.index t (0 : Fin 1) * 50 + 1 * (j 0).val = (j 0).val; omega

/-- Row p of the one-hot window's block at point t is the row of the array that the output block's row p is. -/
theorem blk1_0 (c : Dev nD) (t : Fin cfg1.N) (p : Fin 1024) (q : Fin 50) (k : Fin 2048) :
    (iblk1 V c 0 t : Vec Ideal S1024x2048 .f32) (ix2 p k)
      = V c main_arg1 (ix2 ((((cfg1.win 3).blk t).view.emb (ix2 p q)) 0 : Fin 32768) k) := by
  obtain ⟨e0, e1, -, -, -, e2, -⟩ := idx_facts1 t
  show V c main_arg1 (((cfg1.win 0).blk t).view.emb (ix2 p k)) = _
  refine congrArg (V c main_arg1) (funext fun a => Fin.ext ?_)
  match a with
  | ⟨0, _⟩ => show win1_0.index t (0 : Fin 2) * 1024 + 1 * p.val = win1_3.index t (0 : Fin 2) * 1024 + 1 * p.val; omega
  | ⟨1, _⟩ => show win1_0.index t (1 : Fin 2) * 2048 + 1 * k.val = k.val; omega

/-- The output block's column q is column q of the array. -/
theorem col1_3 (t : Fin cfg1.N) (p : Fin 1024) (q : Fin 50) :
    ((((cfg1.win 3).blk t).view.emb (ix2 p q)) 1 : Fin 50) = q := by
  obtain ⟨-, -, -, -, -, -, e1⟩ := idx_facts1 t
  refine Fin.ext ?_
  show win1_3.index t (1 : Fin 2) * 50 + 1 * q.val = q.val
  omega

/-- What point t writes back is block t of the row function of the arrays the region reads. -/
theorem flushed1_eq (c : Dev nD) (t : Fin cfg1.N) :
    (dat1 V c).flushed 3 t = ((cfg1.win 3).blk t).view.read (Elt Ideal) (rowsTimes (V c main_arg1) (V c main_v0) (V c main_arg3)) := by
  show (cfg1.win 3).cut (grid1.coords t) ((dat1 V c).after 3 t) = _
  rw [after1_3]
  unfold out1_3
  rw [View.canon_unit_zero hz2]
  simp only [View.ld_unit_zero (S := S1024x2048) hz2, View.ld_unit_zero (S := S2048x50) hz2, View.ld_unit_zero (S := S50) hz1]
  rw [blk1_1, blk1_2]
  funext j
  obtain ⟨p, q, rfl⟩ : ∃ (p : Fin 1024) (q : Fin 50), j = ix2 p q := ⟨j 0, j 1, eq_ix2 j⟩
  show k1_pay1 (F := Ideal) (iblk1 V c 0 t) (V c main_v0) (V c main_arg3) (ix2 p q)
    = rowsTimes (V c main_arg1) (V c main_v0) (V c main_arg3) (((cfg1.win 3).blk t).view.emb (ix2 p q))
  refine (Cert.KernelIdeal.Payload.logits_apply _ _ _ p q).trans ?_
  unfold rowsTimes
  rw [col1_3 t p q]
  refine congrArg (· + V c main_arg3 (ix1 q)) (Finset.sum_congr rfl fun k _ => ?_)
  rw [blk1_0 V c t p q k]

/-- An index of the output array is in point t's block iff each coordinate is in the block's range. -/
theorem mem_blk1 (t : Fin cfg1.N) (i : S32768x50.Idx) :
    i ∈ ((cfg1.win 3).blk t).view.set ↔ ∀ a : Fin 2, win1_3.index t a * S1024x50.size a ≤ (i a).val ∧ (i a).val < win1_3.index t a * S1024x50.size a + S1024x50.size a := by
  show i ∈ ((View.whole main_v1).slice (win1_3.rect t)).set ↔ _
  rw [View.set_slice_whole, Rect.mem_set_unit]
  exact Iff.rfl

/-- The 32 row blocks cover the output array: row a is in block a / 1024. -/
theorem cover1 (i : S32768x50.Idx) : ∃ t : Fin cfg1.N, (cfg1.win 3).flush t = true ∧ i ∈ ((cfg1.win 3).blk t).view.set := by
  have hi0 : (i 0).val < 32768 := (i 0).isLt
  have hi1 : (i 1).val < 50 := (i 1).isLt
  have ht : (i 0).val / 1024 < 32 := by omega
  refine ⟨⟨(i 0).val / 1024, ht⟩, flush1_3 _, ?_⟩
  rw [mem_blk1]
  obtain ⟨-, -, -, -, -, e0, e1⟩ := idx_facts1 ⟨(i 0).val / 1024, ht⟩
  have e0' : win1_3.index ⟨(i 0).val / 1024, ht⟩ (0 : Fin 2) = (i 0).val / 1024 := e0
  intro a
  match a with
  | ⟨0, _⟩ => show win1_3.index ⟨(i 0).val / 1024, ht⟩ (0 : Fin 2) * 1024 ≤ (i 0).val ∧ (i 0).val < win1_3.index ⟨(i 0).val / 1024, ht⟩ (0 : Fin 2) * 1024 + 1024; omega
  | ⟨1, _⟩ => show win1_3.index ⟨(i 0).val / 1024, ht⟩ (1 : Fin 2) * 50 ≤ (i 1).val ∧ (i 1).val < win1_3.index ⟨(i 0).val / 1024, ht⟩ (1 : Fin 2) * 50 + 50; omega

/-- Region 1's output array after the region: the row function of the arrays it reads. -/
theorem region1_array (c : Dev nD) :
    (dat1 V c).arrAt 3 cfg1.N = rowsTimes (V c main_arg1) (V c main_v0) (V c main_arg3) :=
  (dat1 V c).arrAt_eq_of_cover 3 _ (fun t _ => flushed1_eq V c t) cover1

end Regions

/-! ## The result buffer at the program's last boundary -/

variable (m : (ℓ : Loc nD τ sig) → Buf (Elt Ideal) ℓ) (ρ : Dev nD → PrngReg)

/-- The first region's result, as the second region finds it, is the product of the first and third arguments. -/
theorem V1_main_v0 (c : Dev nD) :
    V1 m ρ c main_v0 = k0_pay1 (F := Ideal) (m ((c.tc : Thread nD τ).loc main_arg0)) (m ((c.tc : Thread nD τ).loc main_arg2)) :=
  (W1_arr m ρ c 2).trans (region0_array (V0 m ρ) c)

/-- The second and fourth arguments reach the second region as launched: the first region does not touch them. -/
theorem V1_main_arg1 (c : Dev nD) : V1 m ρ c main_arg1 = m ((c.tc : Thread nD τ).loc main_arg1) :=
  W1_of_ne m ρ c main_arg1 (by decide)
theorem V1_main_arg3 (c : Dev nD) : V1 m ρ c main_arg3 = m ((c.tc : Thread nD τ).loc main_arg3) :=
  W1_of_ne m ρ c main_arg3 (by decide)

/-- The result buffer at the last boundary is the kernel program's function of the four arguments as launched. -/
theorem W2_main_v1 (c : Dev nD) :
    W2 m ρ c (Proc.devRef .tc main_v1)
      = kernelOut (m ((c.tc : Thread nD τ).loc main_arg0)) (m ((c.tc : Thread nD τ).loc main_arg1))
          (m ((c.tc : Thread nD τ).loc main_arg2)) (m ((c.tc : Thread nD τ).loc main_arg3)) := by
  refine (W2_arr m ρ c 3).trans ((region1_array (V1 m ρ) c).trans ?_)
  rw [V1_main_v0, V1_main_arg1, V1_main_arg3]
  rfl

end Cert.KernelIdeal.KValue

end
-- ==== Proof.MatAssoc.lean ====
/-
  The one algebraic law of this certificate: a product of three matrices may be bracketed either way,
    sum over r of T r * (sum over c of s r c * W c)  =  sum over c of (sum over r of T r * s r c) * W c,
  for entries that are real numbers sitting in the extended reals. Over the reals it is distributivity, an exchange of
  the two finite sums, and associativity of the product; the extended reals inherit it on the image of the reals, where
  sums and products are the real ones. (At an infinite entry distributivity fails, so the hypothesis is needed.)
-/
import Idealize.ShloMosaic.PureOps.Ideal

namespace Cert.MatAssoc

open scoped BigOperators

/-- An extended real whose absolute value, max x (-x), is below +inf is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The inclusion of the reals in the extended reals carries a finite sum to the finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: (T (s W)) = ((T s) W), one row of T against one column of W. -/
theorem real_assoc {R C : Type*} [Fintype R] [Fintype C] (T : R → ℝ) (s : R → C → ℝ) (W : C → ℝ) :
    ∑ r, T r * (∑ c, s r c * W c) = ∑ c, (∑ r, T r * s r c) * W c := by
  simp only [Finset.mul_sum, Finset.sum_mul]
  rw [Finset.sum_comm]
  exact Finset.sum_congr rfl fun c _ => Finset.sum_congr rfl fun r _ => (mul_assoc _ _ _).symm

/-- The same on the extended reals, for entries that are real. -/
theorem ereal_assoc {R C : Type*} [Fintype R] [Fintype C] (T : R → EReal) (s : R → C → EReal) (W : C → EReal)
    (hT : ∀ r, ∃ x : ℝ, T r = (x : EReal)) (hs : ∀ r c, ∃ x : ℝ, s r c = (x : EReal))
    (hW : ∀ c, ∃ x : ℝ, W c = (x : EReal)) :
    ∑ r, T r * (∑ c, s r c * W c) = ∑ c, (∑ r, T r * s r c) * W c := by
  choose T' hT' using hT
  choose s' hs' using hs
  choose W' hW' using hW
  simp only [hT', hs', hW', ← EReal.coe_mul, ← coe_sum]
  exact congrArg Real.toEReal (real_assoc T' s' W')

end Cert.MatAssoc
-- ==== Proof.FiniteInputs.lean ====
/-
  What the precondition says, entry by entry: finite_inputs is the conjunction of four tests "every entry of this
  argument has absolute value below +inf"; where it is all ones, every entry of every argument is a real number.
-/
import proofs.«125239_j58591943852065_1_alg».proof.Pre_finite_inputs
import proofs.«125239_j58591943852065_1_alg».proof.Proof.MatAssoc
import Idealize.ShloMosaic.PureOps.Ideal
import Idealize.ShloMosaic.Lib.ReduceAll
import Idealize.ShloMosaic.Lib.Affine
import Idealize.ShloMosaic.Lib.ValueIdx

noncomputable section

namespace Cert.Pre_finite_inputs.Decode

open Idealize.ShloMosaic Cert.Pre_finite_inputs

variable [Cert.Pre_finite_inputs.Facts]
open Cert.Pre_finite_inputs.Facts

instance : Subsingleton S_.Idx := ⟨fun a b => funext fun d => d.elim0⟩

/-- One entry: the test |x| < +inf, printed as a comparison against the word of +inf broadcast from a scalar, says the
    entry is a real number. -/
theorem entry_real {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) := by
  have htop : Ideal.ofBits .f32 0x7F800000#32 = ⊤ := by simp [Ideal.ofBits, Ideal.ieee]
  have h' : Ideal.cmp .olt (max (a i : EReal) (-(a i : EReal))) (Ideal.ofBits .f32 0x7F800000#32) = 1#1 := h
  rw [htop] at h'
  unfold Ideal.cmp at h'
  refine Cert.MatAssoc.exists_real_of_abs_lt_top _ ?_
  by_contra hn
  simp [hn] at h'

/-- All four arguments: where finite_inputs is all ones, every entry of each is real. -/
theorem all_real (a0 : FVec Ideal S2048x384 .f32) (a1 : FVec Ideal S32768x2048 .f32) (a2 : FVec Ideal S384x50 .f32)
    (a3 : FVec Ideal S50 .f32) (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  simp only [andi, IntOp.andi_eq_one] at h0
  obtain ⟨⟨⟨e0, e1⟩, e2⟩, e3⟩ := h0
  exact ⟨fun i => entry_real a0 _ i (Host.reduce_andi_all _ _ _ _ _ e0 i),
    fun i => entry_real a1 _ i (Host.reduce_andi_all _ _ _ _ _ e1 i),
    fun i => entry_real a2 _ i (Host.reduce_andi_all _ _ _ _ _ e2 i),
    fun i => entry_real a3 _ i (Host.reduce_andi_all _ _ _ _ _ e3 i)⟩

end Cert.Pre_finite_inputs.Decode

end
-- ==== Proof.RefValue.lean ====
/-
  The reference program's result at an index: it multiplies the one-hot matrix by the embedding first and the
  weights second, then adds the bias repeated down the rows. Entry (a, o) is
    the sum over c of (the sum over r of T (a, r) * s (r, c)) * W (c, o), plus b o.
  Each host operation is read at an index by the generated stage lemmas; written here are only the index
  identifications between their composed index functions and coordinates.
-/
import proofs.«125239_j58591943852065_1_alg».proof.Defs
import proofs.«125239_j58591943852065_1_alg».proof.Proof.Gen.ReferenceIdeal.Run
import proofs.«125239_j58591943852065_1_alg».proof.Proof.Gen.ReferenceIdeal.Read
import Idealize.ShloMosaic.Lib.ValueIdx

noncomputable section

namespace Cert.ReferenceIdeal.RefValue

open Cert.ReferenceIdeal Cert.ReferenceIdeal.Read Idealize.ShloMosaic Idealize.ShloMosaic.ValueIdx

/-- Entry (a, o) of the reference's result. -/
theorem ref_apply (s : Vec Ideal S2048x384 .f32) (T : Vec Ideal S32768x2048 .f32) (W : Vec Ideal S384x50 .f32)
    (b : Vec Ideal S50 .f32) (i : S32768x50.Idx) :
    val_main_v4 (F := Ideal) s T W b i
      = (∑ c : Fin 384, (∑ r : Fin 2048, T (ix2 (i 0 : Fin 32768) r) * s (ix2 r c)) * W (ix2 c (i 1 : Fin 50)))
        + b (ix1 (i 1 : Fin 50)) := by
  have l1 : ∀ k : Fin 384, lidx_main_v1 i k = ix2 (i 0 : Fin 32768) k := fun k => funext fun a => Fin.ext (by
    match a with | ⟨0, _⟩ => rfl | ⟨1, _⟩ => rfl)
  have r1 : ∀ k : Fin 384, ridx_main_v1 i k = ix2 k (i 1 : Fin 50) := fun k => funext fun a => Fin.ext (by
    match a with | ⟨0, _⟩ => rfl | ⟨1, _⟩ => rfl)
  have l0 : ∀ (c : Fin 384) (r : Fin 2048), lidx_main_v0 (ix2 (i 0 : Fin 32768) c) r = ix2 (i 0 : Fin 32768) r := fun c r => funext fun a => Fin.ext (by
    match a with | ⟨0, _⟩ => rfl | ⟨1, _⟩ => rfl)
  have r0 : ∀ (c : Fin 384) (r : Fin 2048), ridx_main_v0 (ix2 (i 0 : Fin 32768) c) r = ix2 r c := fun c r => funext fun a => Fin.ext (by
    match a with | ⟨0, _⟩ => rfl | ⟨1, _⟩ => rfl)
  have i3 : idx_main_v2 (idx_main_v3 i) = ix1 (i 1 : Fin 50) := funext fun a => Fin.ext (by
    match a with | ⟨0, _⟩ => rfl)
  rw [val_main_v4_apply, val_main_v1_apply, val_main_v3_apply, val_main_v2_apply, i3]
  simp only [l1, r1]
  change (∑ c : Fin 384, val_main_v0 (F := Ideal) s T (ix2 (i 0 : Fin 32768) c) * W (ix2 c (i 1 : Fin 50)))
      + b (ix1 (i 1 : Fin 50)) = _
  refine congrArg (· + b (ix1 (i 1 : Fin 50))) (Finset.sum_congr rfl fun c _ => ?_)
  rw [val_main_v0_apply]
  simp only [l0, r0]
  rfl

end Cert.ReferenceIdeal.RefValue

end
-- ==== Proof.Bridge.lean ====
/-
  The two programs compute one function of real arguments. The kernel program brackets the triple product as
  T (s W) and the reference as (T s) W; entry by entry these are the two sides of the bracketing law for finite sums of
  real numbers, and both then add the same bias entry.
-/
import proofs.«125239_j58591943852065_1_alg».proof.Proof.KernelValue
import proofs.«125239_j58591943852065_1_alg».proof.Proof.RefValue
import proofs.«125239_j58591943852065_1_alg».proof.Proof.MatAssoc

noncomputable section

namespace Cert.Bridge

open Idealize.ShloMosaic Idealize.ShloMosaic.ValueIdx

/-- For real entries, the reference's result is the kernel program's. -/
theorem ref_eq_kernel (s : Vec Ideal Cert.ReferenceIdeal.S2048x384 .f32) (T : Vec Ideal Cert.ReferenceIdeal.S32768x2048 .f32)
    (W : Vec Ideal Cert.ReferenceIdeal.S384x50 .f32) (b : Vec Ideal Cert.ReferenceIdeal.S50 .f32)
    (hs : ∀ i, ∃ r : ℝ, s i = (r : EReal)) (hT : ∀ i, ∃ r : ℝ, T i = (r : EReal)) (hW : ∀ i, ∃ r : ℝ, W i = (r : EReal)) :
    Cert.ReferenceIdeal.Read.val_main_v4 (F := Ideal) s T W b = Cert.KernelIdeal.KValue.kernelOut s T W b := by
  funext i
  rw [Cert.ReferenceIdeal.RefValue.ref_apply]
  unfold Cert.KernelIdeal.KValue.kernelOut Cert.KernelIdeal.KValue.rowsTimes
  refine congrArg (· + b (ix1 (i 1 : Fin 50))) ?_
  refine (Cert.MatAssoc.ereal_assoc (fun r : Fin 2048 => T (ix2 (i 0 : Fin 32768) r)) (fun (r : Fin 2048) (c : Fin 384) => s (ix2 r c))
    (fun c : Fin 384 => W (ix2 c (i 1 : Fin 50))) (fun r => hT _) (fun r c => hs _) (fun c => hW _)).symm.trans
    (Finset.sum_congr rfl fun k _ => ?_)
  exact congrArg (fun z => T (ix2 (i 0 : Fin 32768) k) * z) (Cert.KernelIdeal.Payload.sw_apply s W k (i 1 : Fin 50)).symm

end Cert.Bridge

end
-- ==== Proof.lean ====
/-
  The certificate of a two-stage linear head against its reference.
  The kernel program computes T (s W) + b in two regions: the first writes s W (2048 x 50) in one step, the second
  walks the 32768 rows of the one-hot matrix T in 32 blocks of 1024 and writes T (s W) + b block by block. The
  reference computes (T s) W + b on the host. At the ideal instance a change of float format is the identity and both
  matrix products are plain finite sums, so entry by entry the two results are the two bracketings of a triple
  product plus the same bias entry. They agree because every input entry is a real number (the precondition):
  for real entries distributivity, the exchange of two finite sums and associativity of the product give
    sum_r T(a,r) (sum_c s(r,c) W(c,o))  =  sum_c (sum_r T(a,r) s(r,c)) W(c,o).
  The three frames are the generated ones (the reference's is its generated run with the result dropped); the
  idealization rewrote nothing, so there is nothing to preserve.
-/
import proofs.«125239_j58591943852065_1_alg».proof.Defs
import proofs.«125239_j58591943852065_1_alg».proof.Proof.Gen.Kernel
import proofs.«125239_j58591943852065_1_alg».proof.Proof.Gen.Kernel.Skeleton
import proofs.«125239_j58591943852065_1_alg».proof.Proof.Gen.Kernel.Launch
import proofs.«125239_j58591943852065_1_alg».proof.Proof.Gen.Kernel.Points
import proofs.«125239_j58591943852065_1_alg».proof.Proof.Gen.Kernel.Frame
import proofs.«125239_j58591943852065_1_alg».proof.Proof.Gen.KernelIdeal
import proofs.«125239_j58591943852065_1_alg».proof.Proof.Gen.KernelIdeal.Skeleton
import proofs.«125239_j58591943852065_1_alg».proof.Proof.Gen.KernelIdeal.Launch
import proofs.«125239_j58591943852065_1_alg».proof.Proof.Gen.KernelIdeal.Points
import proofs.«125239_j58591943852065_1_alg».proof.Proof.Gen.KernelIdeal.Frame
import proofs.«125239_j58591943852065_1_alg».proof.Proof.Gen.ReferenceIdeal
import proofs.«125239_j58591943852065_1_alg».proof.Proof.Gen.ReferenceIdeal.Run
import proofs.«125239_j58591943852065_1_alg».proof.Proof.Gen.ReferenceIdeal.Read
import proofs.«125239_j58591943852065_1_alg».proof.Proof.Gen.Pre_finite_inputs
import proofs.«125239_j58591943852065_1_alg».proof.Proof.KernelRun
import proofs.«125239_j58591943852065_1_alg».proof.Proof.KernelValue
import proofs.«125239_j58591943852065_1_alg».proof.Proof.FiniteInputs
import proofs.«125239_j58591943852065_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the kernel program's function of the launched arguments: the kernel program by its named
    run read at the result buffer, the reference by its generated run, its last stage, and the bracketing law on the
    real entries the precondition gives. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KValue.W2_main_v1 m ρ c), (h c).2⟩)
      (Cert.KernelIdeal.Launched.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, -⟩ := Cert.Pre_finite_inputs.Decode.all_real _ _ _ _ (hpre c)
  rw [Cert.ReferenceIdeal.Read.val_main_v4_eq, (hagree c).1, (hagree c).2.1, (hagree c).2.2.1, (hagree c).2.2.2]
  exact Cert.Bridge.ref_eq_kernel _ _ _ _ h0 h1 h2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
